-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x3x512x512 : Shape := ⟨4, ![64, 3, 512, 512]⟩
abbrev S_ : Shape := ⟨0, ![]⟩

class Facts : Prop where
  bcast_S_S64x3x512x512 : S_.BroadcastsInDim S64x3x512x512 (![] : Fin 0 → Fin S64x3x512x512.rank)
  reducesTo_S64x3x512x512_S_d0_1_2_3 : S64x3x512x512.ReducesTo [0, 1, 2, 3] S_
  h_S_ : 0 < S_.numel

variable [Facts]

def fn {F : FTy → Type} [FloatOps F] (main_arg0 : FVec F S64x3x512x512 .f32) : IVec S_ 1 :=
  let main_v0 : FVec F S64x3x512x512 .f32 := Host.absf main_arg0
  let main_cst : FVec F S_ .f32 := constant S_ .f32 0x7F800000#32
  let main_v1 : FVec F S64x3x512x512 .f32 := broadcastInDim S64x3x512x512 ![] bcast_S_S64x3x512x512 main_cst
  let main_v2 : IVec S64x3x512x512 1 := cmpf .olt main_v0 main_v1
  let main_c : IVec S_ 1 := constantI S_ 1 1#1
  let main_v3 : IVec S_ 1 := (fun x v => Host.reduce IntOp.andi x v reducesTo_S64x3x512x512_S_d0_1_2_3 h_S_) main_v2 main_c
  main_v3
-- ==== Kernel.lean ====
abbrev S64x3x512x512 : Shape := ⟨4, ![64, 3, 512, 512]⟩
abbrev S192x512x512 : Shape := ⟨3, ![192, 512, 512]⟩
abbrev S4x512x512 : Shape := ⟨3, ![4, 512, 512]⟩
abbrev S4x1x512 : Shape := ⟨3, ![4, 1, 512]⟩
abbrev S4x511x512 : Shape := ⟨3, ![4, 511, 512]⟩
abbrev S4x512x1 : Shape := ⟨3, ![4, 512, 1]⟩
abbrev S4x512x511 : Shape := ⟨3, ![4, 512, 511]⟩

abbrev nBuf : Space → Nat
  | .hbm => 4
  | .vmem => 4
  | .smem => 0
  | _ => 0

abbrev bufTy : (tb : Table) → Fin (tcTables nBuf tb) → BufTy
  | .hbm, ⟨0, _⟩ => ⟨S64x3x512x512, .f32⟩
  | .hbm, ⟨1, _⟩ => ⟨S192x512x512, .f32⟩
  | .hbm, ⟨2, _⟩ => ⟨S192x512x512, .f32⟩
  | .hbm, ⟨3, _⟩ => ⟨S64x3x512x512, .f32⟩
  | .local _ .vmem, ⟨0, _⟩ => ⟨S4x512x512, .f32⟩
  | .local _ .vmem, ⟨1, _⟩ => ⟨S4x512x512, .f32⟩
  | .local _ .vmem, ⟨2, _⟩ => ⟨S4x512x512, .f32⟩
  | .local _ .vmem, ⟨3, _⟩ => ⟨S4x512x512, .f32⟩
  | _, _ => ⟨S64x3x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![48], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  shapeCasts_S64x3x512x512_S192x512x512 : S64x3x512x512.ShapeCasts S192x512x512
  inb_S4x512x512_S4x512x512_0_0_0 : ∀ a, (![0, 0, 0] : Fin 3 → Nat) a + S4x512x512.size a ≤ S4x512x512.size a
  h_S4x512x512 : 0 < S4x512x512.numel
  shapeCasts_S4x512x512_S4x512x512 : S4x512x512.ShapeCasts S4x512x512
  slices_S4x512x512_o0_1_0_S4x1x512 : S4x512x512.Slices ![0, 1, 0] S4x1x512
  slices_S4x512x512_o0_510_0_S4x1x512 : S4x512x512.Slices ![0, 510, 0] S4x1x512
  slices_S4x512x512_o0_0_0_S4x511x512 : S4x512x512.Slices ![0, 0, 0] S4x511x512
  concatenates_S4x1x512_S4x511x512_S4x512x512_d1 : Shape.Concatenates [S4x1x512, S4x511x512] S4x512x512 1
  slices_S4x512x512_o0_1_0_S4x511x512 : S4x512x512.Slices ![0, 1, 0] S4x511x512
  concatenates_S4x511x512_S4x1x512_S4x512x512_d1 : Shape.Concatenates [S4x511x512, S4x1x512] S4x512x512 1
  slices_S4x512x512_o0_0_1_S4x512x1 : S4x512x512.Slices ![0, 0, 1] S4x512x1
  slices_S4x512x512_o0_0_510_S4x512x1 : S4x512x512.Slices ![0, 0, 510] S4x512x1
  slices_S4x512x512_o0_0_0_S4x512x511 : S4x512x512.Slices ![0, 0, 0] S4x512x511
  concatenates_S4x512x1_S4x512x511_S4x512x512_d2 : Shape.Concatenates [S4x512x1, S4x512x511] S4x512x512 2
  slices_S4x512x512_o0_0_1_S4x512x511 : S4x512x512.Slices ![0, 0, 1] S4x512x511
  concatenates_S4x512x511_S4x512x1_S4x512x512_d2 : Shape.Concatenates [S4x512x511, S4x512x1] S4x512x512 2
  shapeCasts_S192x512x512_S64x3x512x512 : S192x512x512.ShapeCasts S64x3x512x512
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x512x512.size a ≤ S192x512x512.size a
  hwx0_0 : ∀ i : grid0.Coords, EltTy.bits .f32 = 32 ∨ (Rect.block (s := S192x512x512) S4x512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x512x512.size a ≤ S192x512x512.size a
  hwx0_1 : ∀ i : grid0.Coords, EltTy.bits .f32 = 32 ∨ (Rect.block (s := S192x512x512) S4x512x512.size (cc0_transform_1 i) (hinb0_1 i)).WholeWords (EltTy.packing .f32)

variable [Facts₀]

abbrev win0_0 : Pipeline.Window sig grid0 :=
  Pipeline.Window.ofSpec (Memref.whole main_v0) S4x512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S4x512x512.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S64x3x512x512 : Shape := ⟨4, ![64, 3, 512, 512]⟩
abbrev S_ : Shape := ⟨0, ![]⟩
abbrev S64x3x1x512 : Shape := ⟨4, ![64, 3, 1, 512]⟩
abbrev S64x3x513x512 : Shape := ⟨4, ![64, 3, 513, 512]⟩
abbrev S64x3x514x512 : Shape := ⟨4, ![64, 3, 514, 512]⟩
abbrev S64x3x512x1 : Shape := ⟨4, ![64, 3, 512, 1]⟩
abbrev S64x3x512x513 : Shape := ⟨4, ![64, 3, 512, 513]⟩
abbrev S64x3x512x514 : Shape := ⟨4, ![64, 3, 512, 514]⟩

abbrev nBuf : Space → Nat
  | .hbm => 47
  | .vmem => 0
  | .smem => 0
  | _ => 0

abbrev bufTy : (tb : Table) → Fin (tcTables nBuf tb) → BufTy
  | .hbm, ⟨0, _⟩ => ⟨S64x3x512x512, .f32⟩
  | .hbm, ⟨1, _⟩ => ⟨S_, .i32⟩
  | .hbm, ⟨2, _⟩ => ⟨S64x3x1x512, .f32⟩
  | .hbm, ⟨3, _⟩ => ⟨S64x3x1x512, .f32⟩
  | .hbm, ⟨4, _⟩ => ⟨S64x3x1x512, .f32⟩
  | .hbm, ⟨5, _⟩ => ⟨S64x3x513x512, .f32⟩
  | .hbm, ⟨6, _⟩ => ⟨S64x3x1x512, .f32⟩
  | .hbm, ⟨7, _⟩ => ⟨S64x3x1x512, .f32⟩
  | .hbm, ⟨8, _⟩ => ⟨S64x3x1x512, .f32⟩
  | .hbm, ⟨9, _⟩ => ⟨S64x3x514x512, .f32⟩
  | .hbm, ⟨10, _⟩ => ⟨S64x3x512x512, .f32⟩
  | .hbm, ⟨11, _⟩ => ⟨S_, .f32⟩
  | .hbm, ⟨12, _⟩ => ⟨S64x3x512x512, .f32⟩
  | .hbm, ⟨13, _⟩ => ⟨S64x3x512x512, .f32⟩
  | .hbm, ⟨14, _⟩ => ⟨S64x3x512x512, .f32⟩
  | .hbm, ⟨15, _⟩ => ⟨S_, .f32⟩
  | .hbm, ⟨16, _⟩ => ⟨S64x3x512x512, .f32⟩
  | .hbm, ⟨17, _⟩ => ⟨S64x3x512x512, .f32⟩
  | .hbm, ⟨18, _⟩ => ⟨S64x3x512x512, .f32⟩
  | .hbm, ⟨19, _⟩ => ⟨S64x3x512x512, .f32⟩
  | .hbm, ⟨20, _⟩ => ⟨S_, .f32⟩
  | .hbm, ⟨21, _⟩ => ⟨S64x3x512x512, .f32⟩
  | .hbm, ⟨22, _⟩ => ⟨S64x3x512x512, .f32⟩
  | .hbm, ⟨23, _⟩ => ⟨S64x3x512x512, .f32⟩
  | .hbm, ⟨24, _⟩ => ⟨S_, .i32⟩
  | .hbm, ⟨25, _⟩ => ⟨S64x3x512x1, .f32⟩
  | .hbm, ⟨26, _⟩ => ⟨S64x3x512x1, .f32⟩
  | .hbm, ⟨27, _⟩ => ⟨S64x3x512x1, .f32⟩
  | .hbm, ⟨28, _⟩ => ⟨S64x3x512x513, .f32⟩
  | .hbm, ⟨29, _⟩ => ⟨S64x3x512x1, .f32⟩
  | .hbm, ⟨30, _⟩ => ⟨S64x3x512x1, .f32⟩
  | .hbm, ⟨31, _⟩ => ⟨S64x3x512x1, .f32⟩
  | .hbm, ⟨32, _⟩ => ⟨S64x3x512x514, .f32⟩
  | .hbm, ⟨33, _⟩ => ⟨S64x3x512x512, .f32⟩
  | .hbm, ⟨34, _⟩ => ⟨S_, .f32⟩
  | .hbm, ⟨35, _⟩ => ⟨S64x3x512x512, .f32⟩
  | .hbm, ⟨36, _⟩ => ⟨S64x3x512x512, .f32⟩
  | .hbm, ⟨37, _⟩ => ⟨S64x3x512x512, .f32⟩
  | .hbm, ⟨38, _⟩ => ⟨S_, .f32⟩
  | .hbm, ⟨39, _⟩ => ⟨S64x3x512x512, .f32⟩
  | .hbm, ⟨40, _⟩ => ⟨S64x3x512x512, .f32⟩
  | .hbm, ⟨41, _⟩ => ⟨S64x3x512x512, .f32⟩
  | .hbm, ⟨42, _⟩ => ⟨S64x3x512x512, .f32⟩
  | .hbm, ⟨43, _⟩ => ⟨S_, .f32⟩
  | .hbm, ⟨44, _⟩ => ⟨S64x3x512x512, .f32⟩
  | .hbm, ⟨45, _⟩ => ⟨S64x3x512x512, .f32⟩
  | .hbm, ⟨46, _⟩ => ⟨S64x3x512x512, .f32⟩
  | _, _ => ⟨S64x3x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_call0_v0 : Ref sig .tc := ⟨.hbm, 2, rfl⟩
abbrev main_call0_v1 : Ref sig .tc := ⟨.hbm, 3, rfl⟩
abbrev main_call0_v2 : Ref sig .tc := ⟨.hbm, 4, rfl⟩
abbrev main_call0_v3 : Ref sig .tc := ⟨.hbm, 5, rfl⟩
abbrev main_call0_v4 : Ref sig .tc := ⟨.hbm, 6, rfl⟩
abbrev main_call0_v5 : Ref sig .tc := ⟨.hbm, 7, rfl⟩
abbrev main_call0_v6 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_1 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_c_2 : Ref sig .tc := ⟨.hbm, 24, rfl⟩
abbrev main_call1_v0 : Ref sig .tc := ⟨.hbm, 25, rfl⟩
abbrev main_call1_v1 : Ref sig .tc := ⟨.hbm, 26, rfl⟩
abbrev main_call1_v2 : Ref sig .tc := ⟨.hbm, 27, rfl⟩
abbrev main_call1_v3 : Ref sig .tc := ⟨.hbm, 28, rfl⟩
abbrev main_call1_v4 : Ref sig .tc := ⟨.hbm, 29, rfl⟩
abbrev main_call1_v5 : Ref sig .tc := ⟨.hbm, 30, rfl⟩
abbrev main_call1_v6 : Ref sig .tc := ⟨.hbm, 31, rfl⟩
abbrev main_v12 : Ref sig .tc := ⟨.hbm, 32, rfl⟩
abbrev main_v13 : Ref sig .tc := ⟨.hbm, 33, rfl⟩
abbrev main_cst_3 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_cst_4 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_cst_5 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩

abbrev nD : Nat := 1
abbrev τ : Topo := Topo.v7x

variable {F : FTy → Type} [FloatOps F]

class Facts₀ : Prop where
  slices_S64x3x512x512_S64x3x1x512_0_0_0_0 : S64x3x512x512.Slices ![0, 0, 0, 0] S64x3x1x512
  slices_S64x3x512x512_S64x3x1x512_0_0_1_0 : S64x3x512x512.Slices ![0, 0, 1, 0] S64x3x1x512
  concatenates_S64x3x1x512_S64x3x512x512_S64x3x513x512_d2 : Shape.Concatenates [S64x3x1x512, S64x3x512x512] S64x3x513x512 2
  slices_S64x3x513x512_S64x3x1x512_0_0_512_0 : S64x3x513x512.Slices ![0, 0, 512, 0] S64x3x1x512
  slices_S64x3x513x512_S64x3x1x512_0_0_511_0 : S64x3x513x512.Slices ![0, 0, 511, 0] S64x3x1x512
  concatenates_S64x3x513x512_S64x3x1x512_S64x3x514x512_d2 : Shape.Concatenates [S64x3x513x512, S64x3x1x512] S64x3x514x512 2
  slices_S64x3x514x512_S64x3x512x512_0_0_0_0 : S64x3x514x512.Slices ![0, 0, 0, 0] S64x3x512x512
  bcast_S_S64x3x512x512 : S_.BroadcastsInDim S64x3x512x512 (![] : Fin 0 → Fin S64x3x512x512.rank)
  slices_S64x3x514x512_S64x3x512x512_0_0_1_0 : S64x3x514x512.Slices ![0, 0, 1, 0] S64x3x512x512
  slices_S64x3x514x512_S64x3x512x512_0_0_2_0 : S64x3x514x512.Slices ![0, 0, 2, 0] S64x3x512x512
  slices_S64x3x512x512_S64x3x512x1_0_0_0_0 : S64x3x512x512.Slices ![0, 0, 0, 0] S64x3x512x1
  slices_S64x3x512x512_S64x3x512x1_0_0_0_1 : S64x3x512x512.Slices ![0, 0, 0, 1] S64x3x512x1
  concatenates_S64x3x512x1_S64x3x512x512_S64x3x512x513_d3 : Shape.Concatenates [S64x3x512x1, S64x3x512x512] S64x3x512x513 3
  slices_S64x3x512x513_S64x3x512x1_0_0_0_512 : S64x3x512x513.Slices ![0, 0, 0, 512] S64x3x512x1
  slices_S64x3x512x513_S64x3x512x1_0_0_0_511 : S64x3x512x513.Slices ![0, 0, 0, 511] S64x3x512x1
  concatenates_S64x3x512x513_S64x3x512x1_S64x3x512x514_d3 : Shape.Concatenates [S64x3x512x513, S64x3x512x1] S64x3x512x514 3
  slices_S64x3x512x514_S64x3x512x512_0_0_0_0 : S64x3x512x514.Slices ![0, 0, 0, 0] S64x3x512x512
  slices_S64x3x512x514_S64x3x512x512_0_0_0_1 : S64x3x512x514.Slices ![0, 0, 0, 1] S64x3x512x512
  slices_S64x3x512x514_S64x3x512x512_0_0_0_2 : S64x3x512x514.Slices ![0, 0, 0, 2] S64x3x512x512

variable [Facts₀]

class Facts : Prop extends Facts₀ where

variable [Facts]
-- ==== Proof.Stencil.lean ====
/-
  The filter both programs apply, stated once over a single 512 × 512 image: a three-tap pass with weights
  (1/4, 1/2, 1/4) down the rows, then the same pass along the columns. At an edge the missing neighbour is the
  mirror image of the inner one about the edge entry (the edge entry itself is not repeated): below row 0 sits
  row 1, above row 511 sits row 510. Both programs add the three products in the same order,
  (1/4 · a + 1/2 · b) + 1/4 · c, so no law of arithmetic is needed to join them; the weights stay the binary
  words the programs print.
-/
import Idealize.ShloMosaic.PureOps.Ideal
import Idealize.ShloMosaic.Lib.ValueIdx

noncomputable section

namespace Cert.Stencil

open Idealize.ShloMosaic

/-- The neighbour before `h` on an axis of 512 entries, mirrored at the edge: `0 ↦ 1`, otherwise `h - 1`. -/
def lo (h : Fin 512) : Fin 512 := ⟨if h.val = 0 then 1 else h.val - 1, by split <;> omega⟩

/-- The neighbour after `h`, mirrored at the edge: `511 ↦ 510`, otherwise `h + 1`. -/
def hi (h : Fin 512) : Fin 512 := ⟨if h.val = 511 then 510 else h.val + 1, by split <;> omega⟩

theorem lo_zero {h : Fin 512} (e : h.val = 0) : (lo h).val = 1 := by simp [lo, e]
theorem lo_pos {h : Fin 512} (e : ¬ h.val = 0) : (lo h).val = h.val - 1 := by simp [lo, e]
theorem hi_last {h : Fin 512} (e : h.val = 511) : (hi h).val = 510 := by simp [hi, e]
theorem hi_lt {h : Fin 512} (e : ¬ h.val = 511) : (hi h).val = h.val + 1 := by simp [hi, e]

/-- One output of the three-tap pass from its three inputs, in the order both programs add them. -/
def tap (a b c : EReal) : EReal :=
  (Ideal.ofBits .f32 0x3E800000#32 * a + Ideal.ofBits .f32 0x3F000000#32 * b) + Ideal.ofBits .f32 0x3E800000#32 * c

/-- The pass down the rows of one image. -/
def blurH (img : Fin 512 → Fin 512 → EReal) (h w : Fin 512) : EReal := tap (img (lo h) w) (img h w) (img (hi h) w)

/-- The pass along the columns of one image. -/
def blurW (img : Fin 512 → Fin 512 → EReal) (h w : Fin 512) : EReal := tap (img h (lo w)) (img h w) (img h (hi w))

/-- The whole filter: rows first, then columns. -/
def blur (img : Fin 512 → Fin 512 → EReal) : Fin 512 → Fin 512 → EReal := blurW (blurH img)

/-- The stack of 64 × 3 images both programs take and return. -/
abbrev Stack : Shape := ⟨4, ![64, 3, 512, 512]⟩

/-- The filter applied to every image of a stack: the value both programs end with. -/
def blurStack (x : Stack.Idx → EReal) : Stack.Idx → EReal :=
  fun i => blur (fun h w => x (ValueIdx.ix4 (i 0 : Fin 64) (i 1 : Fin 3) h w)) (i 2 : Fin 512) (i 3 : Fin 512)

theorem blurStack_apply (x : Stack.Idx → EReal) (b : Fin 64) (c : Fin 3) (h w : Fin 512) :
    blurStack x (ValueIdx.ix4 b c h w) = blur (fun h' w' => x (ValueIdx.ix4 b c h' w')) h w := rfl

end Cert.Stencil

end
-- ==== Proof.KernelBody.lean ====
/-
  What the kernel body computes from one loaded block of four images, entry by entry.
  The body builds each shifted copy of its block by gluing a one-entry edge strip to a 511-entry slice:
  "previous row" is row 1 followed by rows 0 … 510, "next row" is rows 1 … 511 followed by row 510, and the same
  along the columns. Read at an index, each glued array is the block at the mirrored neighbour (`Stencil.lo`,
  `Stencil.hi`) of that index; the arithmetic between them is pointwise. So the stored value at image `n`,
  row `h`, column `w` is the two-pass filter of image `n` at (`h`, `w`).
-/
import proofs.«155764_j61426622267936_1_alg».proof.Proof.Gen.KernelIdeal.Skeleton
import proofs.«155764_j61426622267936_1_alg».proof.Proof.Stencil
import Idealize.ShloMosaic.Lib.Pipeline.Value
import Idealize.ShloMosaic.Lib.ValueIdx

noncomputable section

namespace Cert.KernelIdeal.Body

open Idealize.ShloMosaic Idealize.ShloMosaic.ValueIdx Cert.KernelIdeal Cert.Stencil

variable {α : Type}

/-- Row 1 glued in front of rows 0 … 510: at row `h` it holds the block's row `lo h`. -/
theorem rows_before (x : S4x512x512.Idx → α) (hs1 : S4x512x512.Slices ![0, 1, 0] S4x1x512)
    (hs2 : S4x512x512.Slices ![0, 0, 0] S4x511x512) (hc : Shape.Concatenates [S4x1x512, S4x511x512] S4x512x512 1)
    (n : Fin 4) (h w : Fin 512) :
    concatenate S4x512x512 1 [⟨S4x1x512, extractStridedSlice S4x1x512 ![0, 1, 0] x hs1⟩,
      ⟨S4x511x512, extractStridedSlice S4x511x512 ![0, 0, 0] x hs2⟩] hc (ix3 n h w) = x (ix3 n (lo h) w) := by
  by_cases h0 : h.val = 0
  · refine (concatenate_pair_apply_left 1 _ _ hc (ix3 n h w) rfl (ix3 n (0 : Fin 1) w) ?_).trans ?_
    · intro b
      match b with
      | ⟨0, _⟩ => rfl
      | ⟨1, _⟩ => exact h0.symm
      | ⟨2, _⟩ => rfl
    · refine extractStridedSlice_apply _ x hs1 _ _ ?_
      intro a
      match a with
      | ⟨0, _⟩ => exact (Nat.zero_add _).symm
      | ⟨1, _⟩ => exact lo_zero h0
      | ⟨2, _⟩ => exact (Nat.zero_add _).symm
  · refine (concatenate_pair_apply_right 1 _ _ hc (ix3 n h w) rfl rfl
      (ix3 n (⟨h.val - 1, by omega⟩ : Fin 511) w) ?_ ?_).trans ?_
    · intro b hb
      match b with
      | ⟨0, _⟩ => rfl
      | ⟨1, _⟩ => exact absurd rfl hb
      | ⟨2, _⟩ => rfl
    · show (h.val - 1) + 1 = h.val
      omega
    · refine extractStridedSlice_apply _ x hs2 _ _ ?_
      intro a
      match a with
      | ⟨0, _⟩ => exact (Nat.zero_add _).symm
      | ⟨1, _⟩ =>
        show (lo h).val = 0 + (h.val - 1)
        rw [lo_pos h0]; omega
      | ⟨2, _⟩ => exact (Nat.zero_add _).symm

/-- Rows 1 … 511 with row 510 glued behind: at row `h` it holds the block's row `hi h`. -/
theorem rows_after (x : S4x512x512.Idx → α) (hs1 : S4x512x512.Slices ![0, 1, 0] S4x511x512)
    (hs2 : S4x512x512.Slices ![0, 510, 0] S4x1x512) (hc : Shape.Concatenates [S4x511x512, S4x1x512] S4x512x512 1)
    (n : Fin 4) (h w : Fin 512) :
    concatenate S4x512x512 1 [⟨S4x511x512, extractStridedSlice S4x511x512 ![0, 1, 0] x hs1⟩,
      ⟨S4x1x512, extractStridedSlice S4x1x512 ![0, 510, 0] x hs2⟩] hc (ix3 n h w) = x (ix3 n (hi h) w) := by
  by_cases h0 : h.val = 511
  · refine (concatenate_pair_apply_right 1 _ _ hc (ix3 n h w) rfl rfl (ix3 n (0 : Fin 1) w) ?_ ?_).trans ?_
    · intro b hb
      match b with
      | ⟨0, _⟩ => rfl
      | ⟨1, _⟩ => exact absurd rfl hb
      | ⟨2, _⟩ => rfl
    · show 0 + 511 = h.val
      omega
    · refine extractStridedSlice_apply _ x hs2 _ _ ?_
      intro a
      match a with
      | ⟨0, _⟩ => exact (Nat.zero_add _).symm
      | ⟨1, _⟩ => exact hi_last h0
      | ⟨2, _⟩ => exact (Nat.zero_add _).symm
  · refine (concatenate_pair_apply_left 1 _ _ hc (ix3 n h w) rfl
      (ix3 n (⟨h.val, by omega⟩ : Fin 511) w) ?_).trans ?_
    · intro b
      match b with
      | ⟨0, _⟩ => rfl
      | ⟨1, _⟩ => rfl
      | ⟨2, _⟩ => rfl
    · refine extractStridedSlice_apply _ x hs1 _ _ ?_
      intro a
      match a with
      | ⟨0, _⟩ => exact (Nat.zero_add _).symm
      | ⟨1, _⟩ =>
        show (hi h).val = 1 + h.val
        rw [hi_lt h0]; omega
      | ⟨2, _⟩ => exact (Nat.zero_add _).symm

/-- Column 1 glued in front of columns 0 … 510: at column `w` it holds the block's column `lo w`. -/
theorem cols_before (x : S4x512x512.Idx → α) (hs1 : S4x512x512.Slices ![0, 0, 1] S4x512x1)
    (hs2 : S4x512x512.Slices ![0, 0, 0] S4x512x511) (hc : Shape.Concatenates [S4x512x1, S4x512x511] S4x512x512 2)
    (n : Fin 4) (h w : Fin 512) :
    concatenate S4x512x512 2 [⟨S4x512x1, extractStridedSlice S4x512x1 ![0, 0, 1] x hs1⟩,
      ⟨S4x512x511, extractStridedSlice S4x512x511 ![0, 0, 0] x hs2⟩] hc (ix3 n h w) = x (ix3 n h (lo w)) := by
  by_cases h0 : w.val = 0
  · refine (concatenate_pair_apply_left 2 _ _ hc (ix3 n h w) rfl (ix3 n h (0 : Fin 1)) ?_).trans ?_
    · intro b
      match b with
      | ⟨0, _⟩ => rfl
      | ⟨1, _⟩ => rfl
      | ⟨2, _⟩ => exact h0.symm
    · refine extractStridedSlice_apply _ x hs1 _ _ ?_
      intro a
      match a with
      | ⟨0, _⟩ => exact (Nat.zero_add _).symm
      | ⟨1, _⟩ => exact (Nat.zero_add _).symm
      | ⟨2, _⟩ => exact lo_zero h0
  · refine (concatenate_pair_apply_right 2 _ _ hc (ix3 n h w) rfl rfl
      (ix3 n h (⟨w.val - 1, by omega⟩ : Fin 511)) ?_ ?_).trans ?_
    · intro b hb
      match b with
      | ⟨0, _⟩ => rfl
      | ⟨1, _⟩ => rfl
      | ⟨2, _⟩ => exact absurd rfl hb
    · show (w.val - 1) + 1 = w.val
      omega
    · refine extractStridedSlice_apply _ x hs2 _ _ ?_
      intro a
      match a with
      | ⟨0, _⟩ => exact (Nat.zero_add _).symm
      | ⟨1, _⟩ => exact (Nat.zero_add _).symm
      | ⟨2, _⟩ =>
        show (lo w).val = 0 + (w.val - 1)
        rw [lo_pos h0]; omega

/-- Columns 1 … 511 with column 510 glued behind: at column `w` it holds the block's column `hi w`. -/
theorem cols_after (x : S4x512x512.Idx → α) (hs1 : S4x512x512.Slices ![0, 0, 1] S4x512x511)
    (hs2 : S4x512x512.Slices ![0, 0, 510] S4x512x1) (hc : Shape.Concatenates [S4x512x511, S4x512x1] S4x512x512 2)
    (n : Fin 4) (h w : Fin 512) :
    concatenate S4x512x512 2 [⟨S4x512x511, extractStridedSlice S4x512x511 ![0, 0, 1] x hs1⟩,
      ⟨S4x512x1, extractStridedSlice S4x512x1 ![0, 0, 510] x hs2⟩] hc (ix3 n h w) = x (ix3 n h (hi w)) := by
  by_cases h0 : w.val = 511
  · refine (concatenate_pair_apply_right 2 _ _ hc (ix3 n h w) rfl rfl (ix3 n h (0 : Fin 1)) ?_ ?_).trans ?_
    · intro b hb
      match b with
      | ⟨0, _⟩ => rfl
      | ⟨1, _⟩ => rfl
      | ⟨2, _⟩ => exact absurd rfl hb
    · show 0 + 511 = w.val
      omega
    · refine extractStridedSlice_apply _ x hs2 _ _ ?_
      intro a
      match a with
      | ⟨0, _⟩ => exact (Nat.zero_add _).symm
      | ⟨1, _⟩ => exact (Nat.zero_add _).symm
      | ⟨2, _⟩ => exact hi_last h0
  · refine (concatenate_pair_apply_left 2 _ _ hc (ix3 n h w) rfl
      (ix3 n h (⟨w.val, by omega⟩ : Fin 511)) ?_).trans ?_
    · intro b
      match b with
      | ⟨0, _⟩ => rfl
      | ⟨1, _⟩ => rfl
      | ⟨2, _⟩ => rfl
    · refine extractStridedSlice_apply _ x hs1 _ _ ?_
      intro a
      match a with
      | ⟨0, _⟩ => exact (Nat.zero_add _).symm
      | ⟨1, _⟩ => exact (Nat.zero_add _).symm
      | ⟨2, _⟩ =>
        show (hi w).val = 1 + w.val
        rw [hi_lt h0]; omega

/-- The body's stored value at image `n`, row `h`, column `w`: the two-pass filter of image `n` of the
    loaded block at (`h`, `w`). -/
theorem payload_apply (x0 : Vec Ideal S4x512x512 .f32) (n : Fin 4) (h w : Fin 512) :
    Gen.k0_pay1 (F := Ideal) x0 (ix3 n h w) = blur (fun h' w' => x0 (ix3 n h' w')) h w := by
  unfold Gen.k0_pay1
  simp only [shapeCast_self, addf_apply, mulf_apply, broadcast_apply, cols_before, cols_after, rows_before, rows_after]
  rfl

end Cert.KernelIdeal.Body

end
-- ==== Proof.LibMerge01.lean ====
/-
  Merging the two leading axes of a rank-4 array into one, and splitting them again, read at an index.
  Row-major order makes entry (a, b, i, j) of an [A, B, H, W] array and entry (a · B + b, i, j) of its
  [M, H, W] reshape (M = A · B) the same entry.
-/
import Idealize.ShloMosaic.Lib.Pipeline.Value
import Idealize.ShloMosaic.Lib.ValueIdx

namespace Idealize.ShloMosaic.LibMerge01

open Idealize.ShloMosaic Idealize.ShloMosaic.ValueIdx

variable {α : Type} {A B H W M : Nat}

/-- The [M, H, W] reshape of an [A, B, H, W] array, at (N, i, j) with N = a · B + b, is the array at (a, b, i, j). -/
theorem shapeCast_merge01_apply (x : (⟨4, ![A, B, H, W]⟩ : Shape).Idx → α)
    (hc : (⟨4, ![A, B, H, W]⟩ : Shape).ShapeCasts ⟨3, ![M, H, W]⟩)
    (N : Fin M) (a : Fin A) (b : Fin B) (i : Fin H) (j : Fin W) (hN : N.val = a.val * B + b.val) :
    shapeCast (⟨3, ![M, H, W]⟩ : Shape) x hc (ix3 N i j) = x (ix4 a b i j) := by
  refine shapeCast_apply x hc _ _ ?_
  rw [Shape.rowMajor_val_three, Shape.rowMajor_val_four]
  show ((a.val * B + b.val) * H + i.val) * W + j.val = (N.val * H + i.val) * W + j.val
  rw [hN]

/-- The [A, B, H, W] reshape of an [M, H, W] array, at (a, b, i, j), is the array at (a · B + b, i, j). -/
theorem shapeCast_split01_apply (y : (⟨3, ![M, H, W]⟩ : Shape).Idx → α)
    (hc : (⟨3, ![M, H, W]⟩ : Shape).ShapeCasts ⟨4, ![A, B, H, W]⟩)
    (N : Fin M) (a : Fin A) (b : Fin B) (i : Fin H) (j : Fin W) (hN : N.val = a.val * B + b.val) :
    shapeCast (⟨4, ![A, B, H, W]⟩ : Shape) y hc (ix4 a b i j) = y (ix3 N i j) := by
  refine shapeCast_apply y hc _ _ ?_
  rw [Shape.rowMajor_val_three, Shape.rowMajor_val_four]
  show (N.val * H + i.val) * W + j.val = ((a.val * B + b.val) * H + i.val) * W + j.val
  rw [hN]

end Idealize.ShloMosaic.LibMerge01
-- ==== Proof.KernelValue.lean ====
/-
  The kernel program's run, read as a value. @main reshapes the stack of 64 × 3 images to 192 images, runs the
  kernel over 48 grid points — point `t` loads images 4t … 4t + 3 as one block and stores the filtered block to the
  same place of the output —, and reshapes the 192 filtered images back. Each point writes back a block of ONE
  function of the whole input array (`imgs`: image `N` filtered), the 48 blocks tile the output, so the output array
  ends at that function; the two reshapes only rename image `3b + c` as image (`b`, `c`).
-/
import proofs.«155764_j61426622267936_1_alg».proof.Proof.Gen.KernelIdeal.Frame
import proofs.«155764_j61426622267936_1_alg».proof.Proof.KernelBody
import proofs.«155764_j61426622267936_1_alg».proof.Proof.LibMerge01
import Idealize.ShloMosaic.Lib.Pipeline.Value
import Idealize.ShloMosaic.Lib.StableHlo.Run

set_option maxRecDepth 16384

noncomputable section

namespace Cert.KernelIdeal.KValue

open Idealize.ShloMosaic Idealize.ShloMosaic.TcCoe Idealize.ShloMosaic.ValueIdx Idealize.SL.Sem
open Cert.KernelIdeal Cert.KernelIdeal.Gen Cert.KernelIdeal.Body Cert.Stencil
open Idealize.ShloMosaic.Pipeline (Dat Cfg Window)

variable (m : (ℓ : Loc nD τ sig) → Buf (Elt Ideal) ℓ) (ρ : Dev nD → PrngReg)

/-! ## One function of the whole array -/

/-- Every one of the 192 images filtered. -/
def imgs (a : FVec Ideal S192x512x512 .f32) : FVec Ideal S192x512x512 .f32 :=
  fun i => blur (fun h w => a (ix3 (i 0 : Fin 192) h w)) (i 1 : Fin 512) (i 2 : Fin 512)

theorem imgs_apply (a : FVec Ideal S192x512x512 .f32) (N : Fin 192) (h w : Fin 512) :
    imgs a (ix3 N h w) = blur (fun h' w' => a (ix3 N h' w')) h w := rfl

/-- What the body stores from a block that holds images `4q … 4q + 3` of `a` is, entry by entry, `imgs a` at the
    array index under the block entry. -/
theorem block_value (x0 : Vec Ideal S4x512x512 .f32) (a : FVec Ideal S192x512x512 .f32) (q : Nat)
    (hx : ∀ (n : Fin 4) (h w : Fin 512) (N : Fin 192), N.val = q * 4 + n.val → x0 (ix3 n h w) = a (ix3 N h w))
    (j : S4x512x512.Idx) (i : S192x512x512.Idx)
    (h0 : (i 0).val = q * 4 + (j 0).val) (h1 : (i 1).val = (j 1).val) (h2 : (i 2).val = (j 2).val) :
    k0_pay1 (F := Ideal) x0 j = imgs a i := by
  obtain ⟨n, h, w, rfl⟩ : ∃ (n : Fin 4) (h w : Fin 512), j = ix3 n h w := ⟨j 0, j 1, j 2, eq_ix3 j⟩
  obtain ⟨N, h', w', rfl⟩ : ∃ (N : Fin 192) (h' w' : Fin 512), i = ix3 N h' w' := ⟨i 0, i 1, i 2, eq_ix3 i⟩
  have e1 : h' = h := Fin.ext h1
  have e2 : w' = w := Fin.ext h2
  subst e1 e2
  rw [payload_apply, imgs_apply]
  refine congrArg (fun f => blur f h' w') (funext fun r => funext fun s => ?_)
  exact hx n r s N h0

/-! ## What a point writes back -/

theorem hz : (![0, 0, 0] : Fin 3 → Nat) = fun _ => 0 := funext fun a => by fin_cases a <;> rfl

/-- The printed index maps, decided over the grid: both windows move together along the image axis, one block
    of four images per point, and stay at block 0 on the other two. -/
theorem idx_facts : ∀ t : Fin cfg0.N, win0_0.index t (0 : Fin 3) = win0_1.index t (0 : Fin 3)
    ∧ win0_0.index t (1 : Fin 3) = 0 ∧ win0_0.index t (2 : Fin 3) = 0
    ∧ win0_1.index t (1 : Fin 3) = 0 ∧ win0_1.index t (2 : Fin 3) = 0
    ∧ win0_1.index t (0 : Fin 3) < 48 :=
  (by decide +kernel : ∀ t : Fin grid0.N, _)

/-- Every block of four images is some point's. -/
theorem idx_onto : ∀ q0 : Fin 48, ∃ t : Fin cfg0.N, win0_1.index t = ![q0.val, 0, 0] :=
  (by decide +kernel : ∀ q0 : Fin 48, ∃ t : Fin grid0.N, win0_1.index t = ![q0.val, 0, 0])

/-- The input block at point `t` is the input array read under the block. -/
theorem iblk_apply (c : Dev nD) (t : Fin cfg0.N) (n : Fin 4) (h w : Fin 512) (N : Fin 192)
    (hN : N.val = win0_1.index t (0 : Fin 3) * 4 + n.val) :
    iblk m c 0 t (ix3 n h w) = V m c main_v0 (ix3 N h w) := by
  obtain ⟨e0, e1, e2, -, -, -⟩ := idx_facts t
  show V m c main_v0 (((cfg0.win 0).blk t).view.emb (ix3 n h w)) = V m c main_v0 (ix3 N h w)
  refine congrArg (V m c main_v0) (funext fun a => Fin.ext ?_)
  match a with
  | ⟨0, _⟩ =>
    show win0_0.index t (0 : Fin 3) * 4 + 1 * n.val = N.val
    omega
  | ⟨1, _⟩ =>
    show win0_0.index t (1 : Fin 3) * 512 + 1 * h.val = h.val
    omega
  | ⟨2, _⟩ =>
    show win0_0.index t (2 : Fin 3) * 512 + 1 * w.val = w.val
    omega

/-- WHAT POINT `t` WRITES BACK is block `t` of `imgs` of the input array as the region finds it. -/
theorem flushed_eq (c : Dev nD) (t : Fin cfg0.N) :
    (dats m 0 c).flushed 1 t = ((cfg0.win 1).blk t).view.read (Elt Ideal) (imgs (V m c main_v0)) := by
  show (cfg0.win 1).cut (grid0.coords t) ((dats m 0 c).after 1 t) = _
  rw [after0_1]
  unfold out0_1
  rw [View.canon_unit_zero hz]
  simp only [View.ld_unit_zero (S := S4x512x512) hz]
  obtain ⟨-, -, -, e1, e2, -⟩ := idx_facts t
  funext j
  show k0_pay1 (F := Ideal) (iblk m c 0 t) j = imgs (V m c main_v0) (((cfg0.win 1).blk t).view.emb j)
  refine block_value (iblk m c 0 t) (V m c main_v0) (win0_1.index t (0 : Fin 3))
    (fun n h w N hN => iblk_apply m c t n h w N hN) j _ ?_ ?_ ?_
  · show win0_1.index t (0 : Fin 3) * 4 + 1 * (j 0).val = _
    omega
  · show win0_1.index t (1 : Fin 3) * 512 + 1 * (j 1).val = _
    omega
  · show win0_1.index t (2 : Fin 3) * 512 + 1 * (j 2).val = _
    omega

/-! ## The blocks tile the output -/

/-- An index of the array is in point `t`'s block iff each coordinate is in the block's range on its axis. -/
theorem mem_blk (t : Fin cfg0.N) (i : S192x512x512.Idx) :
    i ∈ ((cfg0.win 1).blk t).view.set ↔ ∀ a : Fin 3, win0_1.index t a * S4x512x512.size a ≤ (i a).val ∧ (i a).val < win0_1.index t a * S4x512x512.size a + S4x512x512.size a := by
  show i ∈ ((View.whole main_v1).slice (win0_1.rect t)).set ↔ _
  rw [View.set_slice_whole, Rect.mem_set_unit]
  exact Iff.rfl

/-- Every index of the output is in the block of the point that handles its group of four images. -/
theorem cover (i : S192x512x512.Idx) :
    ∃ t : Fin cfg0.N, (cfg0.win 1).flush t = true ∧ i ∈ ((cfg0.win 1).blk t).view.set := by
  have hi0 : (i 0).val < 192 := (i 0).isLt
  have hi1 : (i 1).val < 512 := (i 1).isLt
  have hi2 : (i 2).val < 512 := (i 2).isLt
  obtain ⟨t, ht⟩ := idx_onto ⟨(i 0).val / 4, by omega⟩
  have q0 : win0_1.index t (0 : Fin 3) = (i 0).val / 4 := congrFun ht 0
  have q1 : win0_1.index t (1 : Fin 3) = 0 := congrFun ht 1
  have q2 : win0_1.index t (2 : Fin 3) = 0 := congrFun ht 2
  refine ⟨t, flush0_1 t, ?_⟩
  rw [mem_blk]
  intro a
  match a with
  | ⟨0, _⟩ =>
    show win0_1.index t (0 : Fin 3) * 4 ≤ (i 0).val ∧ (i 0).val < win0_1.index t (0 : Fin 3) * 4 + 4
    omega
  | ⟨1, _⟩ =>
    show win0_1.index t (1 : Fin 3) * 512 ≤ (i 1).val ∧ (i 1).val < win0_1.index t (1 : Fin 3) * 512 + 512
    omega
  | ⟨2, _⟩ =>
    show win0_1.index t (2 : Fin 3) * 512 ≤ (i 2).val ∧ (i 2).val < win0_1.index t (2 : Fin 3) * 512 + 512
    omega

/-- THE OUTPUT ARRAY after the run: every image of the input array, filtered. -/
theorem final (c : Dev nD) : (dats m 0 c).arrAt 1 cfg0.N = imgs (V m c main_v0) :=
  (dats m 0 c).arrAt_eq_of_cover 1 (imgs (V m c main_v0)) (fun t _ => flushed_eq m c t) cover

/-! ## The reshapes around the region -/

/-- The region finds the input array at the argument's 192-image reshape. -/
theorem V_main_v0 (c : Dev nD) :
    (V m c main_v0 : S192x512x512.Idx → EReal)
      = shapeCast S192x512x512 (m ((c : Thread nD τ).loc main_arg0)) shapeCasts_S64x3x512x512_S192x512x512 := by
  show StableHlo.after hostOps0 (fun b => m (c, b)) (Proc.devRef .tc main_v0) = _
  after_results
  rfl

/-- @main's result after the line that follows the region: the output array's reshape to 64 × 3 images. -/
theorem tail_eq (c : Dev nD) :
    (Pipeline.afterTail₀ cfgs (dats m) 0 (V0 m) [hostOps1] c main_v2 : S64x3x512x512.Idx → EReal)
      = shapeCast S64x3x512x512 (imgs (V m c main_v0)) shapeCasts_S192x512x512_S64x3x512x512 := by
  unfold Pipeline.afterTail₀
  show StableHlo.after hostOps1 _ (Proc.devRef .tc main_v2) = _
  after_results
  have e := (Pipeline.withArrays_arr spec0 launch0.win.arr_inj c (V0 m c)
    (fun w => (dats m 0 c).arrAt w (cfgs 0).N) 1).trans (final m c)
  exact congrArg (fun a : S192x512x512.Idx → EReal =>
    shapeCast S64x3x512x512 a shapeCasts_S192x512x512_S64x3x512x512) e

/-- Image (`b`, `c`) of the result is image `3b + c` of the filtered 192, which is image (`b`, `c`) of the argument,
    filtered. -/
theorem result_eq (x : FVec Ideal S64x3x512x512 .f32) :
    shapeCast S64x3x512x512 (imgs (shapeCast S192x512x512 x shapeCasts_S64x3x512x512_S192x512x512))
      shapeCasts_S192x512x512_S64x3x512x512 = blurStack x := by
  funext i
  obtain ⟨b, c, h, w, rfl⟩ : ∃ (b : Fin 64) (c : Fin 3) (h w : Fin 512), i = ix4 b c h w :=
    ⟨i 0, i 1, i 2, i 3, eq_ix4 i⟩
  have hN : b.val * 3 + c.val < 192 := by have := b.isLt; have := c.isLt; omega
  rw [LibMerge01.shapeCast_split01_apply _ _ (⟨b.val * 3 + c.val, hN⟩ : Fin 192) b c h w rfl, imgs_apply,
    blurStack_apply]
  refine congrArg (fun f => blur f h w) (funext fun r => funext fun s => ?_)
  exact LibMerge01.shapeCast_merge01_apply x _ (⟨b.val * 3 + c.val, hN⟩ : Fin 192) b c r s rfl

/-! ## The run, read -/

/-- Every weakly fair execution of the kernel program terminates with the result at the filtered stack and the
    argument unchanged. -/
theorem run : θ_run defs (onTc (τ := τ) (main (F := Ideal))) ⟨m, fun _ => 0, ρ⟩ fun r => ∀ c : Dev nD,
      r.2.mem ((c.tc : Thread nD τ).loc main_v2) = blurStack (m ((c.tc : Thread nD τ).loc main_arg0))
      ∧ r.2.mem ((c.tc : Thread nD τ).loc main_arg0) = m ((c.tc : Thread nD τ).loc main_arg0) :=
  (θ_run defs _ _).mono (fun r h c =>
      ⟨((h c).2 main_v2 (Pipeline.mem_restRefs_of main_v2 (by decide) (by decide))).trans
          ((tail_eq m c).trans ((congrArg (fun a => shapeCast S64x3x512x512 (imgs a) shapeCasts_S192x512x512_S64x3x512x512)
            (V_main_v0 m c)).trans (result_eq _))),
        ((h c).2 main_arg0 (Pipeline.mem_restRefs_of main_arg0 (by decide) (by decide))).trans (W_main_arg0 m (dats m) c)⟩)
    (run_main m ρ)

end Cert.KernelIdeal.KValue

end
-- ==== Proof.RefRun.lean ====
/-
  The reference program's run, read back. Its @main pads the image stack by mirror reflection with one row above
  and one below (a private function that slices the inner neighbour of each edge row, reverses that one-row strip
  along its own axis, and glues it on), takes the three row-shifted slices of the padded stack and adds them with
  weights 1/4, 1/2, 1/4; then does the same along the columns. Listed in order, with the private functions'
  operations written at their call sites, these are 46 host operations in four stretches; every weakly fair execution runs them
  all, and the result buffer ends at their composition applied to the argument (`refOut`), the argument unchanged.
-/
import proofs.«155764_j61426622267936_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The composed value -/

/-- The stack padded by reflection along the rows: 514 rows per image. -/
def padRows (x : FVec F S64x3x512x512 .f32) : FVec F S64x3x514x512 .f32 :=
  concatenate S64x3x514x512 2
    [⟨S64x3x513x512, concatenate S64x3x513x512 2
        [⟨S64x3x1x512, Host.reverse [2] (extractStridedSlice S64x3x1x512 ![0, 0, 1, 0] x slices_S64x3x512x512_S64x3x1x512_0_0_1_0)⟩,
         ⟨S64x3x512x512, x⟩] concatenates_S64x3x1x512_S64x3x512x512_S64x3x513x512_d2⟩,
     ⟨S64x3x1x512, Host.reverse [2] (extractStridedSlice S64x3x1x512 ![0, 0, 511, 0]
        (concatenate S64x3x513x512 2
          [⟨S64x3x1x512, Host.reverse [2] (extractStridedSlice S64x3x1x512 ![0, 0, 1, 0] x slices_S64x3x512x512_S64x3x1x512_0_0_1_0)⟩,
           ⟨S64x3x512x512, x⟩] concatenates_S64x3x1x512_S64x3x512x512_S64x3x513x512_d2)
        slices_S64x3x513x512_S64x3x1x512_0_0_511_0)⟩]
    concatenates_S64x3x513x512_S64x3x1x512_S64x3x514x512_d2

/-- The weighted sum of the three row-shifted slices of a row-padded stack. -/
def sumRows (y : FVec F S64x3x514x512 .f32) : FVec F S64x3x512x512 .f32 :=
  addf (addf
    (mulf (broadcastInDim S64x3x512x512 ![] bcast_S_S64x3x512x512 (constant S_ .f32 0x3E800000#32))
      (extractStridedSlice S64x3x512x512 ![0, 0, 0, 0] y slices_S64x3x514x512_S64x3x512x512_0_0_0_0))
    (mulf (broadcastInDim S64x3x512x512 ![] bcast_S_S64x3x512x512 (constant S_ .f32 0x3F000000#32))
      (extractStridedSlice S64x3x512x512 ![0, 0, 1, 0] y slices_S64x3x514x512_S64x3x512x512_0_0_1_0)))
    (mulf (broadcastInDim S64x3x512x512 ![] bcast_S_S64x3x512x512 (constant S_ .f32 0x3E800000#32))
      (extractStridedSlice S64x3x512x512 ![0, 0, 2, 0] y slices_S64x3x514x512_S64x3x512x512_0_0_2_0))

/-- The stack padded by reflection along the columns: 514 columns per row. -/
def padCols (x : FVec F S64x3x512x512 .f32) : FVec F S64x3x512x514 .f32 :=
  concatenate S64x3x512x514 3
    [⟨S64x3x512x513, concatenate S64x3x512x513 3
        [⟨S64x3x512x1, Host.reverse [3] (extractStridedSlice S64x3x512x1 ![0, 0, 0, 1] x slices_S64x3x512x512_S64x3x512x1_0_0_0_1)⟩,
         ⟨S64x3x512x512, x⟩] concatenates_S64x3x512x1_S64x3x512x512_S64x3x512x513_d3⟩,
     ⟨S64x3x512x1, Host.reverse [3] (extractStridedSlice S64x3x512x1 ![0, 0, 0, 511]
        (concatenate S64x3x512x513 3
          [⟨S64x3x512x1, Host.reverse [3] (extractStridedSlice S64x3x512x1 ![0, 0, 0, 1] x slices_S64x3x512x512_S64x3x512x1_0_0_0_1)⟩,
           ⟨S64x3x512x512, x⟩] concatenates_S64x3x512x1_S64x3x512x512_S64x3x512x513_d3)
        slices_S64x3x512x513_S64x3x512x1_0_0_0_511)⟩]
    concatenates_S64x3x512x513_S64x3x512x1_S64x3x512x514_d3

/-- The weighted sum of the three column-shifted slices of a column-padded stack. -/
def sumCols (y : FVec F S64x3x512x514 .f32) : FVec F S64x3x512x512 .f32 :=
  addf (addf
    (mulf (broadcastInDim S64x3x512x512 ![] bcast_S_S64x3x512x512 (constant S_ .f32 0x3E800000#32))
      (extractStridedSlice S64x3x512x512 ![0, 0, 0, 0] y slices_S64x3x512x514_S64x3x512x512_0_0_0_0))
    (mulf (broadcastInDim S64x3x512x512 ![] bcast_S_S64x3x512x512 (constant S_ .f32 0x3F000000#32))
      (extractStridedSlice S64x3x512x512 ![0, 0, 0, 1] y slices_S64x3x512x514_S64x3x512x512_0_0_0_1)))
    (mulf (broadcastInDim S64x3x512x512 ![] bcast_S_S64x3x512x512 (constant S_ .f32 0x3E800000#32))
      (extractStridedSlice S64x3x512x512 ![0, 0, 0, 2] y slices_S64x3x512x514_S64x3x512x512_0_0_0_2))

/-- The reference's result as a function of its argument. -/
def refOut (x : FVec F S64x3x512x512 .f32) : FVec F S64x3x512x512 .f32 :=
  sumCols (padCols (sumRows (padRows x)))

/-! ## The operations -/

/-- The first stretch: the padding along the rows (the private function's eight operations, after the constant it is passed). -/
abbrev padRowsOps : List (HloOp τ sig (Elt F)) :=
  [ nullary main_c (constantI S_ 32 0#32),
    TRef.unary (Tx := ⟨S64x3x512x512, .f32⟩) (.of main_arg0) main_call0.v0 (extractStridedSlice S64x3x1x512 ![0, 0, 0, 0] · slices_S64x3x512x512_S64x3x1x512_0_0_0_0),
    TRef.unary (Tx := ⟨S64x3x512x512, .f32⟩) (.of main_arg0) main_call0.v1 (extractStridedSlice S64x3x1x512 ![0, 0, 1, 0] · slices_S64x3x512x512_S64x3x1x512_0_0_1_0),
    TRef.unary main_call0.v1 main_call0.call0.v0 (Host.reverse [2]),
    TRef.binary (Tb := ⟨S64x3x512x512, .f32⟩) main_call0.call0.v0 (.of main_arg0) main_call0.v3 (fun a b => concatenate S64x3x513x512 2 [⟨S64x3x1x512, a⟩, ⟨S64x3x512x512, b⟩] concatenates_S64x3x1x512_S64x3x512x512_S64x3x513x512_d2),
    TRef.unary main_call0.v3 main_call0.v4 (extractStridedSlice S64x3x1x512 ![0, 0, 512, 0] · slices_S64x3x513x512_S64x3x1x512_0_0_512_0),
    TRef.unary main_call0.v3 main_call0.v5 (extractStridedSlice S64x3x1x512 ![0, 0, 511, 0] · slices_S64x3x513x512_S64x3x1x512_0_0_511_0),
    TRef.unary main_call0.v5 main_call0.call1.v0 (Host.reverse [2]),
    TRef.binary main_call0.v3 main_call0.call1.v0 main_call0.v7 (fun a b => concatenate S64x3x514x512 2 [⟨S64x3x513x512, a⟩, ⟨S64x3x1x512, b⟩] concatenates_S64x3x513x512_S64x3x1x512_S64x3x514x512_d2) ]

/-- The second stretch: the three row-shifted slices, weighted and added. -/
abbrev sumRowsOps : List (HloOp τ sig (Elt F)) :=
  [ unary main_v0 main_v1 ((extractStridedSlice S64x3x512x512 ![0, 0, 0, 0] · slices_S64x3x514x512_S64x3x512x512_0_0_0_0) : (⟨S64x3x514x512, .f32⟩ : BufTy).Contents (Elt F) → (⟨S64x3x512x512, .f32⟩ : BufTy).Contents (Elt F)),
    nullary main_cst (constant S_ .f32 0x3E800000#32),
    unary main_cst main_v2 (broadcastInDim S64x3x512x512 ![] bcast_S_S64x3x512x512 : (⟨S_, .f32⟩ : BufTy).Contents (Elt F) → (⟨S64x3x512x512, .f32⟩ : BufTy).Contents (Elt F)),
    binary main_v2 main_v1 main_v3 (mulf : (⟨S64x3x512x512, .f32⟩ : BufTy).Contents (Elt F) → (⟨S64x3x512x512, .f32⟩ : BufTy).Contents (Elt F) → (⟨S64x3x512x512, .f32⟩ : BufTy).Contents (Elt F)),
    unary main_v0 main_v4 ((extractStridedSlice S64x3x512x512 ![0, 0, 1, 0] · slices_S64x3x514x512_S64x3x512x512_0_0_1_0) : (⟨S64x3x514x512, .f32⟩ : BufTy).Contents (Elt F) → (⟨S64x3x512x512, .f32⟩ : BufTy).Contents (Elt F)),
    nullary main_cst_0 (constant S_ .f32 0x3F000000#32),
    unary main_cst_0 main_v5 (broadcastInDim S64x3x512x512 ![] bcast_S_S64x3x512x512 : (⟨S_, .f32⟩ : BufTy).Contents (Elt F) → (⟨S64x3x512x512, .f32⟩ : BufTy).Contents (Elt F)),
    binary main_v5 main_v4 main_v6 (mulf : (⟨S64x3x512x512, .f32⟩ : BufTy).Contents (Elt F) → (⟨S64x3x512x512, .f32⟩ : BufTy).Contents (Elt F) → (⟨S64x3x512x512, .f32⟩ : BufTy).Contents (Elt F)),
    binary main_v3 main_v6 main_v7 (addf : (⟨S64x3x512x512, .f32⟩ : BufTy).Contents (Elt F) → (⟨S64x3x512x512, .f32⟩ : BufTy).Contents (Elt F) → (⟨S64x3x512x512, .f32⟩ : BufTy).Contents (Elt F)),
    unary main_v0 main_v8 ((extractStridedSlice S64x3x512x512 ![0, 0, 2, 0] · slices_S64x3x514x512_S64x3x512x512_0_0_2_0) : (⟨S64x3x514x512, .f32⟩ : BufTy).Contents (Elt F) → (⟨S64x3x512x512, .f32⟩ : BufTy).Contents (Elt F)),
    nullary main_cst_1 (constant S_ .f32 0x3E800000#32),
    unary main_cst_1 main_v9 (broadcastInDim S64x3x512x512 ![] bcast_S_S64x3x512x512 : (⟨S_, .f32⟩ : BufTy).Contents (Elt F) → (⟨S64x3x512x512, .f32⟩ : BufTy).Contents (Elt F)),
    binary main_v9 main_v8 main_v10 (mulf : (⟨S64x3x512x512, .f32⟩ : BufTy).Contents (Elt F) → (⟨S64x3x512x512, .f32⟩ : BufTy).Contents (Elt F) → (⟨S64x3x512x512, .f32⟩ : BufTy).Contents (Elt F)),
    binary main_v7 main_v10 main_v11 (addf : (⟨S64x3x512x512, .f32⟩ : BufTy).Contents (Elt F) → (⟨S64x3x512x512, .f32⟩ : BufTy).Contents (Elt F) → (⟨S64x3x512x512, .f32⟩ : BufTy).Contents (Elt F)) ]

/-- The third stretch: the padding along the columns. -/
abbrev padColsOps : List (HloOp τ sig (Elt F)) :=
  [ nullary main_c_2 (constantI S_ 32 0#32),
    TRef.unary (Tx := ⟨S64x3x512x512, .f32⟩) (.of main_v11) main_call1.v0 (extractStridedSlice S64x3x512x1 ![0, 0, 0, 0] · slices_S64x3x512x512_S64x3x512x1_0_0_0_0),
    TRef.unary (Tx := ⟨S64x3x512x512, .f32⟩) (.of main_v11) main_call1.v1 (extractStridedSlice S64x3x512x1 ![0, 0, 0, 1] · slices_S64x3x512x512_S64x3x512x1_0_0_0_1),
    TRef.unary main_call1.v1 main_call1.call0.v0 (Host.reverse [3]),
    TRef.binary (Tb := ⟨S64x3x512x512, .f32⟩) main_call1.call0.v0 (.of main_v11) main_call1.v3 (fun a b => concatenate S64x3x512x513 3 [⟨S64x3x512x1, a⟩, ⟨S64x3x512x512, b⟩] concatenates_S64x3x512x1_S64x3x512x512_S64x3x512x513_d3),
    TRef.unary main_call1.v3 main_call1.v4 (extractStridedSlice S64x3x512x1 ![0, 0, 0, 512] · slices_S64x3x512x513_S64x3x512x1_0_0_0_512),
    TRef.unary main_call1.v3 main_call1.v5 (extractStridedSlice S64x3x512x1 ![0, 0, 0, 511] · slices_S64x3x512x513_S64x3x512x1_0_0_0_511),
    TRef.unary main_call1.v5 main_call1.call1.v0 (Host.reverse [3]),
    TRef.binary main_call1.v3 main_call1.call1.v0 main_call1.v7 (fun a b => concatenate S64x3x512x514 3 [⟨S64x3x512x513, a⟩, ⟨S64x3x512x1, b⟩] concatenates_S64x3x512x513_S64x3x512x1_S64x3x512x514_d3) ]

/-- The fourth stretch: the three column-shifted slices, weighted and added. -/
abbrev sumColsOps : List (HloOp τ sig (Elt F)) :=
  [ unary main_v12 main_v13 ((extractStridedSlice S64x3x512x512 ![0, 0, 0, 0] · slices_S64x3x512x514_S64x3x512x512_0_0_0_0) : (⟨S64x3x512x514, .f32⟩ : BufTy).Contents (Elt F) → (⟨S64x3x512x512, .f32⟩ : BufTy).Contents (Elt F)),
    nullary main_cst_3 (constant S_ .f32 0x3E800000#32),
    unary main_cst_3 main_v14 (broadcastInDim S64x3x512x512 ![] bcast_S_S64x3x512x512 : (⟨S_, .f32⟩ : BufTy).Contents (Elt F) → (⟨S64x3x512x512, .f32⟩ : BufTy).Contents (Elt F)),
    binary main_v14 main_v13 main_v15 (mulf : (⟨S64x3x512x512, .f32⟩ : BufTy).Contents (Elt F) → (⟨S64x3x512x512, .f32⟩ : BufTy).Contents (Elt F) → (⟨S64x3x512x512, .f32⟩ : BufTy).Contents (Elt F)),
    unary main_v12 main_v16 ((extractStridedSlice S64x3x512x512 ![0, 0, 0, 1] · slices_S64x3x512x514_S64x3x512x512_0_0_0_1) : (⟨S64x3x512x514, .f32⟩ : BufTy).Contents (Elt F) → (⟨S64x3x512x512, .f32⟩ : BufTy).Contents (Elt F)),
    nullary main_cst_4 (constant S_ .f32 0x3F000000#32),
    unary main_cst_4 main_v17 (broadcastInDim S64x3x512x512 ![] bcast_S_S64x3x512x512 : (⟨S_, .f32⟩ : BufTy).Contents (Elt F) → (⟨S64x3x512x512, .f32⟩ : BufTy).Contents (Elt F)),
    binary main_v17 main_v16 main_v18 (mulf : (⟨S64x3x512x512, .f32⟩ : BufTy).Contents (Elt F) → (⟨S64x3x512x512, .f32⟩ : BufTy).Contents (Elt F) → (⟨S64x3x512x512, .f32⟩ : BufTy).Contents (Elt F)),
    binary main_v15 main_v18 main_v19 (addf : (⟨S64x3x512x512, .f32⟩ : BufTy).Contents (Elt F) → (⟨S64x3x512x512, .f32⟩ : BufTy).Contents (Elt F) → (⟨S64x3x512x512, .f32⟩ : BufTy).Contents (Elt F)),
    unary main_v12 main_v20 ((extractStridedSlice S64x3x512x512 ![0, 0, 0, 2] · slices_S64x3x512x514_S64x3x512x512_0_0_0_2) : (⟨S64x3x512x514, .f32⟩ : BufTy).Contents (Elt F) → (⟨S64x3x512x512, .f32⟩ : BufTy).Contents (Elt F)),
    nullary main_cst_5 (constant S_ .f32 0x3E800000#32),
    unary main_cst_5 main_v21 (broadcastInDim S64x3x512x512 ![] bcast_S_S64x3x512x512 : (⟨S_, .f32⟩ : BufTy).Contents (Elt F) → (⟨S64x3x512x512, .f32⟩ : BufTy).Contents (Elt F)),
    binary main_v21 main_v20 main_v22 (mulf : (⟨S64x3x512x512, .f32⟩ : BufTy).Contents (Elt F) → (⟨S64x3x512x512, .f32⟩ : BufTy).Contents (Elt F) → (⟨S64x3x512x512, .f32⟩ : BufTy).Contents (Elt F)),
    binary main_v19 main_v22 main_v23 (addf : (⟨S64x3x512x512, .f32⟩ : BufTy).Contents (Elt F) → (⟨S64x3x512x512, .f32⟩ : BufTy).Contents (Elt F) → (⟨S64x3x512x512, .f32⟩ : BufTy).Contents (Elt F)) ]

/-- @main's operations in order, each private function's written where it is called, into that call's buffers. -/
abbrev ops : List (HloOp τ sig (Elt F)) :=
  padRowsOps ++ (sumRowsOps ++ (padColsOps ++ sumColsOps))

set_option maxRecDepth 4096 in
/-- @main is that straight line: the private functions unfolded at their calls, sequencing re-associated. -/
theorem main_eq (c : Dev nD) : main (F := F) c = seq ops := by
  simp only [main, fn_pad.body, fn_pad_0.body, fn_flip.body, fn_flip_1.body, ops, padRowsOps, sumRowsOps, padColsOps, sumColsOps,
    List.cons_append, List.nil_append, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., unary_bufs_sub .., unary_bufs_sub .., binary_bufs_sub .., unary_bufs_sub ..,
    unary_bufs_sub .., unary_bufs_sub .., binary_bufs_sub ..,
    unary_bufs_sub .., nullary_bufs_sub .., unary_bufs_sub .., binary_bufs_sub .., unary_bufs_sub .., nullary_bufs_sub ..,
    unary_bufs_sub .., binary_bufs_sub .., binary_bufs_sub .., unary_bufs_sub .., nullary_bufs_sub .., unary_bufs_sub ..,
    binary_bufs_sub .., binary_bufs_sub .., nullary_bufs_sub ..,
    unary_bufs_sub .., unary_bufs_sub .., unary_bufs_sub .., binary_bufs_sub .., unary_bufs_sub ..,
    unary_bufs_sub .., unary_bufs_sub .., binary_bufs_sub ..,
    unary_bufs_sub .., nullary_bufs_sub .., unary_bufs_sub .., binary_bufs_sub .., unary_bufs_sub .., nullary_bufs_sub ..,
    unary_bufs_sub .., binary_bufs_sub .., binary_bufs_sub .., unary_bufs_sub .., nullary_bufs_sub .., unary_bufs_sub ..,
    binary_bufs_sub .., binary_bufs_sub ..⟩

/-- The fold of two stretches is the fold of the second from the fold of the first. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih _

/-- Each stretch's result as a function of the one buffer it reads, from any contents. -/
theorem padRows_out (W : Valuation τ sig (Elt F)) :
    after padRowsOps W (main_v0 : DevRef τ sig) = padRows (W (main_arg0 : DevRef τ sig)) := by
  after_results
  rfl
theorem sumRows_out (W : Valuation τ sig (Elt F)) :
    after sumRowsOps W (main_v11 : DevRef τ sig) = sumRows (W (main_v0 : DevRef τ sig)) := by
  after_results
  rfl
theorem padCols_out (W : Valuation τ sig (Elt F)) :
    after padColsOps W (main_v12 : DevRef τ sig) = padCols (W (main_v11 : DevRef τ sig)) := by
  after_results
  rfl
theorem sumCols_out (W : Valuation τ sig (Elt F)) :
    after sumColsOps W (main_v23 : DevRef τ sig) = sumCols (W (main_v12 : DevRef τ sig)) := by
  after_results
  rfl

/-- The fold of the operations at the result buffer is `refOut` of the argument's contents. -/
theorem out_eq (V : Valuation τ sig (Elt F)) :
    after ops V (main_v23 : DevRef τ sig) = refOut (V (main_arg0 : DevRef τ sig)) := by
  show after (padRowsOps ++ (sumRowsOps ++ (padColsOps ++ sumColsOps))) V _ = _
  rw [after_append, after_append, after_append, sumCols_out, padCols_out, sumRows_out, padRows_out]
  rfl

/-- No stretch writes the argument. -/
theorem padRows_arg0 (W : Valuation τ sig (Elt F)) :
    after padRowsOps W (main_arg0 : DevRef τ sig) = W (main_arg0 : DevRef τ sig) := by
  after_results
theorem sumRows_arg0 (W : Valuation τ sig (Elt F)) :
    after sumRowsOps W (main_arg0 : DevRef τ sig) = W (main_arg0 : DevRef τ sig) := by
  after_results
theorem padCols_arg0 (W : Valuation τ sig (Elt F)) :
    after padColsOps W (main_arg0 : DevRef τ sig) = W (main_arg0 : DevRef τ sig) := by
  after_results
theorem sumCols_arg0 (W : Valuation τ sig (Elt F)) :
    after sumColsOps W (main_arg0 : DevRef τ sig) = W (main_arg0 : DevRef τ sig) := by
  after_results

/-- No operation writes the argument. -/
theorem arg0_eq (V : Valuation τ sig (Elt F)) :
    after ops V (main_arg0 : DevRef τ sig) = V (main_arg0 : DevRef τ sig) := by
  show after (padRowsOps ++ (sumRowsOps ++ (padColsOps ++ sumColsOps))) V _ = _
  rw [after_append, after_append, after_append, sumCols_arg0, padCols_arg0, sumRows_arg0, padRows_arg0]

/-- On every device, from any memory with zero counters: every weakly fair execution of @main terminates with the
    result at `refOut` of the argument and the argument unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v23) = refOut (m ((c.tc : Thread nD τ).loc main_arg0))
      ∧ r.2.mem ((c.tc : Thread nD τ).loc main_arg0) = m ((c.tc : Thread nD τ).loc main_arg0) :=
  (θ_run defs _ _).mono (fun _ h c => ⟨(h c main_v23).trans (out_eq _), (h c main_arg0).trans (arg0_eq _)⟩)
    (run_seq scopedRefs_eq scopedSems_eq defs main (fun _ => ops) main_eq (fun _ => ops_sub) m ρ)

end Cert.ReferenceIdeal.RefRun

end
-- ==== Proof.RefValue.lean ====
/-
  The reference's result, entry by entry. A stack padded by mirror reflection along an axis holds, at padded
  position `r` of 514, the source position `1` for `r = 0`, `510` for `r = 513`, and `r - 1` between (the
  reversal of a strip one entry wide changes nothing). The three slices at offsets 0, 1, 2 therefore read, at
  position `h`, the mirrored neighbour before `h`, `h` itself, and the mirrored neighbour after `h`; their
  weighted sum is one pass of the filter. Rows first, then columns: the result at image (`b`, `c`), row `h`,
  column `w` is the two-pass filter of that image at (`h`, `w`).
-/
import proofs.«155764_j61426622267936_1_alg».proof.Proof.RefRun
import proofs.«155764_j61426622267936_1_alg».proof.Proof.Stencil
import Idealize.ShloMosaic.Lib.Pipeline.Value
import Idealize.ShloMosaic.Lib.ValueIdx

noncomputable section

namespace Cert.ReferenceIdeal.RefValue

open Idealize.ShloMosaic Idealize.ShloMosaic.ValueIdx Cert.ReferenceIdeal Cert.ReferenceIdeal.Gen Cert.ReferenceIdeal.RefRun Cert.Stencil

/-- The source position a padded position reads: mirror reflection about the edge entries. -/
def src (r : Fin 514) : Fin 512 :=
  ⟨if r.val = 0 then 1 else if r.val = 513 then 510 else r.val - 1, by split <;> [omega; (split <;> omega)]⟩

theorem src_add_zero (h : Fin 512) : src ⟨0 + h.val, by omega⟩ = lo h := by
  apply Fin.ext
  show (if 0 + h.val = 0 then 1 else if 0 + h.val = 513 then 510 else 0 + h.val - 1) = (if h.val = 0 then 1 else h.val - 1)
  have := h.isLt
  by_cases h0 : h.val = 0
  · rw [if_pos (by omega), if_pos h0]
  · rw [if_neg (by omega), if_neg (by omega), if_neg h0]; omega
theorem src_add_one (h : Fin 512) : src ⟨1 + h.val, by omega⟩ = h := by
  apply Fin.ext
  show (if 1 + h.val = 0 then 1 else if 1 + h.val = 513 then 510 else 1 + h.val - 1) = h.val
  have := h.isLt
  rw [if_neg (by omega), if_neg (by omega)]; omega
theorem src_add_two (h : Fin 512) : src ⟨2 + h.val, by omega⟩ = hi h := by
  apply Fin.ext
  show (if 2 + h.val = 0 then 1 else if 2 + h.val = 513 then 510 else 2 + h.val - 1) = (if h.val = 511 then 510 else h.val + 1)
  have := h.isLt
  by_cases h0 : h.val = 511
  · rw [if_neg (by omega), if_pos (by omega), if_pos h0]
  · rw [if_neg (by omega), if_neg (by omega), if_neg h0]; omega

variable {α : Type}

/-! ## Along the rows -/

/-- Reversing a strip one row high changes nothing. -/
theorem reverse_row (y : S64x3x1x512.Idx → α) (b : Fin 64) (c : Fin 3) (w : Fin 512) :
    Host.reverse [2] y (ix4 b c (0 : Fin 1) w) = y (ix4 b c (0 : Fin 1) w) := by
  unfold Host.reverse
  refine congrArg y (funext fun a => ?_)
  match a with
  | ⟨0, _⟩ => rfl
  | ⟨1, _⟩ => rfl
  | ⟨2, _⟩ => rfl
  | ⟨3, _⟩ => rfl

/-- Row 1 glued above the stack: 513 rows, row `r` reading row `1` for `r = 0` and `r - 1` after. -/
theorem top_apply (x : S64x3x512x512.Idx → α) (hs : S64x3x512x512.Slices ![0, 0, 1, 0] S64x3x1x512)
    (hc : Shape.Concatenates [S64x3x1x512, S64x3x512x512] S64x3x513x512 2)
    (b : Fin 64) (c : Fin 3) (r : Fin 513) (w : Fin 512) (k : Fin 512)
    (hk : k.val = if r.val = 0 then 1 else r.val - 1) :
    concatenate S64x3x513x512 2 [⟨S64x3x1x512, Host.reverse [2] (extractStridedSlice S64x3x1x512 ![0, 0, 1, 0] x hs)⟩,
      ⟨S64x3x512x512, x⟩] hc (ix4 b c r w) = x (ix4 b c k w) := by
  by_cases h0 : r.val = 0
  · refine (concatenate_pair_apply_left 2 _ _ hc (ix4 b c r w) rfl (ix4 b c (0 : Fin 1) w) ?_).trans ?_
    · intro a
      match a with
      | ⟨0, _⟩ => rfl
      | ⟨1, _⟩ => rfl
      | ⟨2, _⟩ => exact h0.symm
      | ⟨3, _⟩ => rfl
    · rw [reverse_row]
      refine extractStridedSlice_apply _ x hs _ _ ?_
      intro a
      match a with
      | ⟨0, _⟩ => exact (Nat.zero_add _).symm
      | ⟨1, _⟩ => exact (Nat.zero_add _).symm
      | ⟨2, _⟩ => show k.val = 1 + 0; rw [hk, if_pos h0]
      | ⟨3, _⟩ => exact (Nat.zero_add _).symm
  · refine concatenate_pair_apply_right 2 _ _ hc (ix4 b c r w) rfl rfl (ix4 b c k w) ?_ ?_
    · intro a ha
      match a with
      | ⟨0, _⟩ => rfl
      | ⟨1, _⟩ => rfl
      | ⟨2, _⟩ => exact absurd rfl ha
      | ⟨3, _⟩ => rfl
    · show k.val + 1 = r.val
      rw [hk, if_neg h0]; omega

/-- The row-padded stack at padded row `r` is the stack at row `src r`. -/
theorem padRows_apply (x : FVec Ideal S64x3x512x512 .f32) (b : Fin 64) (c : Fin 3) (r : Fin 514) (w : Fin 512) :
    padRows x (ix4 b c r w) = x (ix4 b c (src r) w) := by
  unfold padRows
  by_cases h1 : r.val = 513
  · refine (concatenate_pair_apply_right 2 _ _ concatenates_S64x3x513x512_S64x3x1x512_S64x3x514x512_d2 (ix4 b c r w) rfl rfl (ix4 b c (0 : Fin 1) w) ?_ ?_).trans ?_
    · intro a ha
      match a with
      | ⟨0, _⟩ => rfl
      | ⟨1, _⟩ => rfl
      | ⟨2, _⟩ => exact absurd rfl ha
      | ⟨3, _⟩ => rfl
    · show 0 + 513 = r.val
      omega
    · rw [reverse_row]
      refine (extractStridedSlice_apply _ _ slices_S64x3x513x512_S64x3x1x512_0_0_511_0 _
        (ix4 b c (⟨511, by omega⟩ : Fin 513) w) ?_).trans ?_
      · intro a
        match a with
        | ⟨0, _⟩ => exact (Nat.zero_add _).symm
        | ⟨1, _⟩ => exact (Nat.zero_add _).symm
        | ⟨2, _⟩ => rfl
        | ⟨3, _⟩ => exact (Nat.zero_add _).symm
      · exact top_apply x _ _ b c _ w (src r) (by simp [src, h1])
  · refine (concatenate_pair_apply_left 2 _ _ concatenates_S64x3x513x512_S64x3x1x512_S64x3x514x512_d2 (ix4 b c r w) rfl
      (ix4 b c (⟨r.val, by omega⟩ : Fin 513) w) ?_).trans ?_
    · intro a
      match a with
      | ⟨0, _⟩ => rfl
      | ⟨1, _⟩ => rfl
      | ⟨2, _⟩ => rfl
      | ⟨3, _⟩ => rfl
    · exact top_apply x _ _ b c _ w (src r) (by simp [src, h1])

/-- A row-shifted slice of a row-padded stack at row `h` reads padded row `k + h`. -/
theorem slice_rows (k : Nat) (hk : k ≤ 2) (y : S64x3x514x512.Idx → α)
    (hs : S64x3x514x512.Slices ![0, 0, k, 0] S64x3x512x512) (b : Fin 64) (c : Fin 3) (h w : Fin 512) :
    extractStridedSlice S64x3x512x512 ![0, 0, k, 0] y hs (ix4 b c h w) = y (ix4 b c (⟨k + h.val, by omega⟩ : Fin 514) w) := by
  refine extractStridedSlice_apply _ y hs _ _ ?_
  intro a
  match a with
  | ⟨0, _⟩ => exact (Nat.zero_add _).symm
  | ⟨1, _⟩ => exact (Nat.zero_add _).symm
  | ⟨2, _⟩ => rfl
  | ⟨3, _⟩ => exact (Nat.zero_add _).symm

/-- The pass down the rows: at image (`b`, `c`) it is `blurH` of that image. -/
theorem rows_pass (x : FVec Ideal S64x3x512x512 .f32) (b : Fin 64) (c : Fin 3) (h w : Fin 512) :
    sumRows (padRows x) (ix4 b c h w) = blurH (fun h' w' => x (ix4 b c h' w')) h w := by
  unfold sumRows
  simp only [addf_apply, mulf_apply]
  rw [slice_rows 0 (by omega), slice_rows 1 (by omega), slice_rows 2 (by omega), padRows_apply, padRows_apply,
    padRows_apply, src_add_zero, src_add_one, src_add_two]
  rfl

/-! ## Along the columns -/

/-- Reversing a strip one column wide changes nothing. -/
theorem reverse_col (y : S64x3x512x1.Idx → α) (b : Fin 64) (c : Fin 3) (h : Fin 512) :
    Host.reverse [3] y (ix4 b c h (0 : Fin 1)) = y (ix4 b c h (0 : Fin 1)) := by
  unfold Host.reverse
  refine congrArg y (funext fun a => ?_)
  match a with
  | ⟨0, _⟩ => rfl
  | ⟨1, _⟩ => rfl
  | ⟨2, _⟩ => rfl
  | ⟨3, _⟩ => rfl

/-- Column 1 glued in front of the stack: 513 columns, column `r` reading column `1` for `r = 0` and `r - 1` after. -/
theorem left_apply (x : S64x3x512x512.Idx → α) (hs : S64x3x512x512.Slices ![0, 0, 0, 1] S64x3x512x1)
    (hc : Shape.Concatenates [S64x3x512x1, S64x3x512x512] S64x3x512x513 3)
    (b : Fin 64) (c : Fin 3) (h : Fin 512) (r : Fin 513) (k : Fin 512)
    (hk : k.val = if r.val = 0 then 1 else r.val - 1) :
    concatenate S64x3x512x513 3 [⟨S64x3x512x1, Host.reverse [3] (extractStridedSlice S64x3x512x1 ![0, 0, 0, 1] x hs)⟩,
      ⟨S64x3x512x512, x⟩] hc (ix4 b c h r) = x (ix4 b c h k) := by
  by_cases h0 : r.val = 0
  · refine (concatenate_pair_apply_left 3 _ _ hc (ix4 b c h r) rfl (ix4 b c h (0 : Fin 1)) ?_).trans ?_
    · intro a
      match a with
      | ⟨0, _⟩ => rfl
      | ⟨1, _⟩ => rfl
      | ⟨2, _⟩ => rfl
      | ⟨3, _⟩ => exact h0.symm
    · rw [reverse_col]
      refine extractStridedSlice_apply _ x hs _ _ ?_
      intro a
      match a with
      | ⟨0, _⟩ => exact (Nat.zero_add _).symm
      | ⟨1, _⟩ => exact (Nat.zero_add _).symm
      | ⟨2, _⟩ => exact (Nat.zero_add _).symm
      | ⟨3, _⟩ => show k.val = 1 + 0; rw [hk, if_pos h0]
  · refine concatenate_pair_apply_right 3 _ _ hc (ix4 b c h r) rfl rfl (ix4 b c h k) ?_ ?_
    · intro a ha
      match a with
      | ⟨0, _⟩ => rfl
      | ⟨1, _⟩ => rfl
      | ⟨2, _⟩ => rfl
      | ⟨3, _⟩ => exact absurd rfl ha
    · show k.val + 1 = r.val
      rw [hk, if_neg h0]; omega

/-- The column-padded stack at padded column `r` is the stack at column `src r`. -/
theorem padCols_apply (x : FVec Ideal S64x3x512x512 .f32) (b : Fin 64) (c : Fin 3) (h : Fin 512) (r : Fin 514) :
    padCols x (ix4 b c h r) = x (ix4 b c h (src r)) := by
  unfold padCols
  by_cases h1 : r.val = 513
  · refine (concatenate_pair_apply_right 3 _ _ concatenates_S64x3x512x513_S64x3x512x1_S64x3x512x514_d3 (ix4 b c h r) rfl rfl (ix4 b c h (0 : Fin 1)) ?_ ?_).trans ?_
    · intro a ha
      match a with
      | ⟨0, _⟩ => rfl
      | ⟨1, _⟩ => rfl
      | ⟨2, _⟩ => rfl
      | ⟨3, _⟩ => exact absurd rfl ha
    · show 0 + 513 = r.val
      omega
    · rw [reverse_col]
      refine (extractStridedSlice_apply _ _ slices_S64x3x512x513_S64x3x512x1_0_0_0_511 _
        (ix4 b c h (⟨511, by omega⟩ : Fin 513)) ?_).trans ?_
      · intro a
        match a with
        | ⟨0, _⟩ => exact (Nat.zero_add _).symm
        | ⟨1, _⟩ => exact (Nat.zero_add _).symm
        | ⟨2, _⟩ => exact (Nat.zero_add _).symm
        | ⟨3, _⟩ => rfl
      · exact left_apply x _ _ b c h _ (src r) (by simp [src, h1])
  · refine (concatenate_pair_apply_left 3 _ _ concatenates_S64x3x512x513_S64x3x512x1_S64x3x512x514_d3 (ix4 b c h r) rfl
      (ix4 b c h (⟨r.val, by omega⟩ : Fin 513)) ?_).trans ?_
    · intro a
      match a with
      | ⟨0, _⟩ => rfl
      | ⟨1, _⟩ => rfl
      | ⟨2, _⟩ => rfl
      | ⟨3, _⟩ => rfl
    · exact left_apply x _ _ b c h _ (src r) (by simp [src, h1])

/-- A column-shifted slice of a column-padded stack at column `w` reads padded column `k + w`. -/
theorem slice_cols (k : Nat) (hk : k ≤ 2) (y : S64x3x512x514.Idx → α)
    (hs : S64x3x512x514.Slices ![0, 0, 0, k] S64x3x512x512) (b : Fin 64) (c : Fin 3) (h w : Fin 512) :
    extractStridedSlice S64x3x512x512 ![0, 0, 0, k] y hs (ix4 b c h w) = y (ix4 b c h (⟨k + w.val, by omega⟩ : Fin 514)) := by
  refine extractStridedSlice_apply _ y hs _ _ ?_
  intro a
  match a with
  | ⟨0, _⟩ => exact (Nat.zero_add _).symm
  | ⟨1, _⟩ => exact (Nat.zero_add _).symm
  | ⟨2, _⟩ => exact (Nat.zero_add _).symm
  | ⟨3, _⟩ => rfl

/-- The pass along the columns: at image (`b`, `c`) it is `blurW` of that image. -/
theorem cols_pass (x : FVec Ideal S64x3x512x512 .f32) (b : Fin 64) (c : Fin 3) (h w : Fin 512) :
    sumCols (padCols x) (ix4 b c h w) = blurW (fun h' w' => x (ix4 b c h' w')) h w := by
  unfold sumCols
  simp only [addf_apply, mulf_apply]
  rw [slice_cols 0 (by omega), slice_cols 1 (by omega), slice_cols 2 (by omega), padCols_apply, padCols_apply,
    padCols_apply, src_add_zero, src_add_one, src_add_two]
  rfl

/-! ## Both passes -/

/-- The reference's result at image (`b`, `c`), row `h`, column `w`: the two-pass filter of that image. -/
theorem refOut_apply (x : FVec Ideal S64x3x512x512 .f32) (b : Fin 64) (c : Fin 3) (h w : Fin 512) :
    refOut x (ix4 b c h w) = blur (fun h' w' => x (ix4 b c h' w')) h w := by
  unfold refOut
  rw [cols_pass]
  show blurW (fun h' w' => sumRows (padRows x) (ix4 b c h' w')) h w = blurW (blurH fun h' w' => x (ix4 b c h' w')) h w
  refine congrArg (fun f => blurW f h w) (funext fun h' => funext fun w' => ?_)
  exact rows_pass x b c h' w'

/-- The reference's result is the filter applied to every image of the stack. -/
theorem refOut_eq (x : FVec Ideal S64x3x512x512 .f32) : refOut x = blurStack x := by
  funext i
  obtain ⟨b, c, h, w, rfl⟩ : ∃ (b : Fin 64) (c : Fin 3) (h w : Fin 512), i = ix4 b c h w :=
    ⟨i 0, i 1, i 2, i 3, eq_ix4 i⟩
  exact (refOut_apply x b c h w).trans (blurStack_apply x b c h w).symm

end Cert.ReferenceIdeal.RefValue

end
-- ==== Proof.lean ====
/-
  The certificate of a 3 × 3 smoothing filter over a stack of 64 × 3 images of 512 × 512 entries: a Pallas kernel
  that filters four images per grid point against a jnp reference that pads the whole stack by mirror reflection
  and adds shifted slices.

  Both programs compute, for every image, a three-tap pass with weights (1/4, 1/2, 1/4) down the rows followed by
  the same pass along the columns, the missing neighbour at an edge being the mirror image of the inner one
  (`Proof/Stencil.lean`). The kernel gets its shifted copies by gluing an edge strip to a slice of the loaded block
  (`Proof/KernelBody.lean`), the reference by slicing a padded copy of the stack (`Proof/RefValue.lean`); read at an
  index both are the same neighbour, and the three products are added in the same order, so the two results are
  equal entry by entry with no appeal to any law of arithmetic — in particular nothing depends on the entries being
  finite. The kernel's blocks tile the output array and the reshapes around the kernel only rename image `3b + c`
  as image (`b`, `c`) (`Proof/KernelValue.lean`); the reference's 46 host operations are run as one straight line
  (`Proof/RefRun.lean`). The frames of the two kernel programs are the generated ones; the reference's frame is its
  run with the result dropped; the idealization rewrote nothing, so `preserves` is trivial.
-/
import proofs.«155764_j61426622267936_1_alg».proof.Defs
import proofs.«155764_j61426622267936_1_alg».proof.Proof.Gen.Kernel
import proofs.«155764_j61426622267936_1_alg».proof.Proof.Gen.Kernel.Frame
import proofs.«155764_j61426622267936_1_alg».proof.Proof.Gen.KernelIdeal
import proofs.«155764_j61426622267936_1_alg».proof.Proof.Gen.KernelIdeal.Frame
import proofs.«155764_j61426622267936_1_alg».proof.Proof.Gen.ReferenceIdeal
import proofs.«155764_j61426622267936_1_alg».proof.Proof.Gen.Pre_finite_inputs
import proofs.«155764_j61426622267936_1_alg».proof.Proof.KernelValue
import proofs.«155764_j61426622267936_1_alg».proof.Proof.RefRun
import proofs.«155764_j61426622267936_1_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.RefRun.run (F := Ideal) m ρ)

/-- From memories that agree on the argument, both programs end with the filtered stack. -/
theorem algebraic : Cert.algebraic_KernelIdeal_ReferenceIdeal := by
  intro m ρ m' ρ' _ hagree
  refine ⟨fun c => Cert.Stencil.blurStack (m ((c.tc : Thread Cert.KernelIdeal.nD Cert.KernelIdeal.τ).loc Cert.KernelIdeal.main_arg0)),
    Cert.KernelIdeal.KValue.run m ρ, ?_⟩
  refine (θ_run Cert.ReferenceIdeal.defs _ _).mono (fun _ h c => ⟨(h c).1.trans ?_, (h c).2⟩)
    (Cert.ReferenceIdeal.RefRun.run (F := Ideal) m' ρ')
  rw [hagree c]
  exact Cert.ReferenceIdeal.RefValue.refOut_eq _

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
